-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S5x1024 : Shape := ⟨2, ![5, 1024]⟩
abbrev S5x3x2 : Shape := ⟨3, ![5, 3, 2]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S5x1024 : S_.BroadcastsInDim S5x1024 (![] : Fin 0 → Fin S5x1024.rank)
  reducesTo_S5x1024_S_d0_1 : S5x1024.ReducesTo [0, 1] S_
  bcast_S_S5x3x2 : S_.BroadcastsInDim S5x3x2 (![] : Fin 0 → Fin S5x3x2.rank)
  reducesTo_S5x3x2_S_d0_1_2 : S5x3x2.ReducesTo [0, 1, 2] S_

variable [Facts]

def fn {F : FTy → Type} [FloatOps F] (main_arg0 : FVec F S32768x1024 .f32) (main_arg1 : FVec F S5x1024 .f32) (main_arg2 : FVec F S5x3x2 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S5x1024 .f32 := Host.absf main_arg1
  let main_cst_0 : FVec F S_ .f32 := constant S_ .f32 0x7F800000#32
  let main_v5 : FVec F S5x1024 .f32 := broadcastInDim S5x1024 ![] bcast_S_S5x1024 main_cst_0
  let main_v6 : IVec S5x1024 1 := cmpf .olt main_v4 main_v5
  let main_c_1 : IVec S_ 1 := constantI S_ 1 1#1
  let main_v7 : IVec S_ 1 := (fun x v => Host.reduce IntOp.andi x v reducesTo_S5x1024_S_d0_1 h_S_) main_v6 main_c_1
  let main_v8 : IVec S_ 1 := andi main_v3 main_v7
  let main_v9 : FVec F S5x3x2 .f32 := Host.absf main_arg2
  let main_cst_2 : FVec F S_ .f32 := constant S_ .f32 0x7F800000#32
  let main_v10 : FVec F S5x3x2 .f32 := broadcastInDim S5x3x2 ![] bcast_S_S5x3x2 main_cst_2
  let main_v11 : IVec S5x3x2 1 := cmpf .olt main_v9 main_v10
  let main_c_3 : IVec S_ 1 := constantI S_ 1 1#1
  let main_v12 : IVec S_ 1 := (fun x v => Host.reduce IntOp.andi x v reducesTo_S5x3x2_S_d0_1_2 h_S_) main_v11 main_c_3
  let main_v13 : IVec S_ 1 := andi main_v8 main_v12
  main_v13
-- ==== Kernel.lean ====
abbrev S32768x1024 : Shape := ⟨2, ![32768, 1024]⟩
abbrev S5x1024 : Shape := ⟨2, ![5, 1024]⟩
abbrev S5x3x2 : Shape := ⟨3, ![5, 3, 2]⟩
abbrev S_ : Shape := ⟨0, ![]⟩
abbrev S5 : Shape := ⟨1, ![5]⟩
abbrev S1x5 : Shape := ⟨2, ![1, 5]⟩
abbrev S1024x5 : Shape := ⟨2, ![1024, 5]⟩
abbrev S2x3x5 : Shape := ⟨3, ![2, 3, 5]⟩
abbrev S1x3x5 : Shape := ⟨3, ![1, 3, 5]⟩
abbrev S3x5 : Shape := ⟨2, ![3, 5]⟩
abbrev S5x3 : Shape := ⟨2, ![5, 3]⟩
abbrev S3 : Shape := ⟨1, ![3]⟩
abbrev S1x3 : Shape := ⟨2, ![1, 3]⟩
abbrev S32768x3 : Shape := ⟨2, ![32768, 3]⟩
abbrev S1024x1024 : Shape := ⟨2, ![1024, 1024]⟩
abbrev S1024x3 : Shape := ⟨2, ![1024, 3]⟩
abbrev S1024 : Shape := ⟨1, ![1024]⟩
abbrev S1024x1 : Shape := ⟨2, ![1024, 1]⟩

abbrev nBuf : Space → Nat
  | .hbm => 37
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S5x1024, .f32⟩
  | .hbm, ⟨2, _⟩ => ⟨S5x3x2, .f32⟩
  | .hbm, ⟨3, _⟩ => ⟨S5x1024, .f32⟩
  | .hbm, ⟨4, _⟩ => ⟨S_, .f32⟩
  | .hbm, ⟨5, _⟩ => ⟨S5, .f32⟩
  | .hbm, ⟨6, _⟩ => ⟨S1x5, .f32⟩
  | .hbm, ⟨7, _⟩ => ⟨S1024x5, .f32⟩
  | .hbm, ⟨8, _⟩ => ⟨S1024x5, .bf16⟩
  | .hbm, ⟨9, _⟩ => ⟨S2x3x5, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x3x5, .f32⟩
  | .hbm, ⟨14, _⟩ => ⟨S2x3x5, .f32⟩
  | .hbm, ⟨15, _⟩ => ⟨S_, .f32⟩
  | .hbm, ⟨16, _⟩ => ⟨S2x3x5, .f32⟩
  | .hbm, ⟨17, _⟩ => ⟨S2x3x5, .f32⟩
  | .hbm, ⟨18, _⟩ => ⟨S1x3x5, .f32⟩
  | .hbm, ⟨19, _⟩ => ⟨S3x5, .f32⟩
  | .hbm, ⟨20, _⟩ => ⟨S1x3x5, .f32⟩
  | .hbm, ⟨21, _⟩ => ⟨S3x5, .f32⟩
  | .hbm, ⟨22, _⟩ => ⟨S_, .f32⟩
  | .hbm, ⟨23, _⟩ => ⟨S3x5, .f32⟩
  | .hbm, ⟨24, _⟩ => ⟨S3x5, .f32⟩
  | .hbm, ⟨25, _⟩ => ⟨S3x5, .f32⟩
  | .hbm, ⟨26, _⟩ => ⟨S3x5, .f32⟩
  | .hbm, ⟨27, _⟩ => ⟨S5x3, .f32⟩
  | .hbm, ⟨28, _⟩ => ⟨S5x3, .bf16⟩
  | .hbm, ⟨29, _⟩ => ⟨S_, .f32⟩
  | .hbm, ⟨30, _⟩ => ⟨S3, .f32⟩
  | .hbm, ⟨31, _⟩ => ⟨S1x3, .f32⟩
  | .hbm, ⟨32, _⟩ => ⟨S3x5, .f32⟩
  | .hbm, ⟨33, _⟩ => ⟨S_, .f32⟩
  | .hbm, ⟨34, _⟩ => ⟨S3, .f32⟩
  | .hbm, ⟨35, _⟩ => ⟨S1x3, .f32⟩
  | .hbm, ⟨36, _⟩ => ⟨S32768x3, .f32⟩
  | .local _ .vmem, ⟨0, _⟩ => ⟨S1024x1024, .f32⟩
  | .local _ .vmem, ⟨1, _⟩ => ⟨S1024x1024, .f32⟩
  | .local _ .vmem, ⟨2, _⟩ => ⟨S1024x5, .bf16⟩
  | .local _ .vmem, ⟨3, _⟩ => ⟨S1x5, .f32⟩
  | .local _ .vmem, ⟨4, _⟩ => ⟨S5x3, .bf16⟩
  | .local _ .vmem, ⟨5, _⟩ => ⟨S1x3, .f32⟩
  | .local _ .vmem, ⟨6, _⟩ => ⟨S1x3, .f32⟩
  | .local _ .vmem, ⟨7, _⟩ => ⟨S1024x3, .f32⟩
  | .local _ .vmem, ⟨8, _⟩ => ⟨S1024x3, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S5x1024_S5_d1 : S5x1024.ReducesTo [1] S5
  h_S_ : 0 < S_.numel
  shapeCasts_S5_S1x5 : S5.ShapeCasts S1x5
  transposes_S5x1024_S1024x5_1_0 : S5x1024.Transposes [1, 0] S1024x5
  bitsLt_bf16_f32 : FTy.bits .bf16 < FTy.bits .f32
  transposes_S5x3x2_S2x3x5_2_1_0 : S5x3x2.Transposes [2, 1, 0] S2x3x5
  bcast_S_S2x3x5 : S_.BroadcastsInDim S2x3x5 (![] : Fin 0 → Fin S2x3x5.rank)
  slices_S2x3x5_S1x3x5_0_0_0 : S2x3x5.Slices ![0, 0, 0] S1x3x5
  shapeCasts_S1x3x5_S3x5 : S1x3x5.ShapeCasts S3x5
  slices_S2x3x5_S1x3x5_1_0_0 : S2x3x5.Slices ![1, 0, 0] S1x3x5
  bcast_S_S3x5 : S_.BroadcastsInDim S3x5 (![] : Fin 0 → Fin S3x5.rank)
  transposes_S3x5_S5x3_1_0 : S3x5.Transposes [1, 0] S5x3
  reducesTo_S3x5_S3_d1 : S3x5.ReducesTo [1] S3
  shapeCasts_S3_S1x3 : S3.ShapeCasts S1x3
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1024x1_S1024x5 : S1024x1.Broadcasts S1024x5
  broadcasts_S1x5_S1024x5 : S1x5.Broadcasts S1024x5
  inb_S5x3_S5x3_0_0 : ∀ a, (![0, 0] : Fin 2 → Nat) a + S5x3.size a ≤ S5x3.size a
  h_S5x3 : 0 < S5x3.numel
  shapeCasts_S5x3_S5x3 : S5x3.ShapeCasts S5x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  dot_S1024x1024_S1024x5_S1024x5_1_0_0_1_n_n_wf : DotDims.WF S1024x1024 S1024x5 S1024x5 [1] [0] [0] [1] [] []
  dot_S1024x5_S5x3_S1024x3_1_0_0_1_n_n_wf : DotDims.WF S1024x5 S5x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x5.size a ≤ S1024x5.size a
  hwx0_1 : ∀ i : grid0.Coords, EltTy.bits .bf16 = 32 ∨ (Rect.block (s := S1024x5) S1024x5.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x3.size a ≤ S5x3.size a
  hwx0_3 : ∀ i : grid0.Coords, EltTy.bits .bf16 = 32 ∨ (Rect.block (s := S5x3) S5x3.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x3.size a ≤ S32768x3.size a
  hwx0_6 : ∀ i : grid0.Coords, EltTy.bits .f32 = 32 ∨ (Rect.block (s := S32768x3) S1024x3.size (cc0_transform_6 i) (hinb0_6 i)).WholeWords (EltTy.packing .f32)

variable [Facts₀]

def dot_S1024x1024_S1024x5_S1024x5_1_0_0_1_n_n : DotDims S1024x1024 S1024x5 S1024x5 where
  lhsContracting := [1]
  rhsContracting := [0]
  lhsNonContracting := [0]
  rhsNonContracting := [1]
  lhsBatch := []
  rhsBatch := []
  wf := dot_S1024x1024_S1024x5_S1024x5_1_0_0_1_n_n_wf
def dot_S1024x5_S5x3_S1024x3_1_0_0_1_n_n : DotDims S1024x5 S5x3 S1024x3 where
  lhsContracting := [1]
  rhsContracting := [0]
  lhsNonContracting := [0]
  rhsNonContracting := [1]
  lhsBatch := []
  rhsBatch := []
  wf := dot_S1024x5_S5x3_S1024x3_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1024x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S5x1024 : Shape := ⟨2, ![5, 1024]⟩
abbrev S5x3x2 : Shape := ⟨3, ![5, 3, 2]⟩
abbrev S_ : Shape := ⟨0, ![]⟩
abbrev S32768 : Shape := ⟨1, ![32768]⟩
abbrev S32768x1 : Shape := ⟨2, ![32768, 1]⟩
abbrev S5 : Shape := ⟨1, ![5]⟩
abbrev S1x5 : Shape := ⟨2, ![1, 5]⟩
abbrev S32768x5 : Shape := ⟨2, ![32768, 5]⟩
abbrev S1024x5 : Shape := ⟨2, ![1024, 5]⟩
abbrev S2x3x5 : Shape := ⟨3, ![2, 3, 5]⟩
abbrev S1x3x5 : Shape := ⟨3, ![1, 3, 5]⟩
abbrev S3x5 : Shape := ⟨2, ![3, 5]⟩
abbrev S5x3 : Shape := ⟨2, ![5, 3]⟩
abbrev S32768x3 : Shape := ⟨2, ![32768, 3]⟩
abbrev S3 : Shape := ⟨1, ![3]⟩
abbrev S1x3 : Shape := ⟨2, ![1, 3]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S5x1024, .f32⟩
  | .hbm, ⟨2, _⟩ => ⟨S5x3x2, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S5x1024, .f32⟩
  | .hbm, ⟨8, _⟩ => ⟨S_, .f32⟩
  | .hbm, ⟨9, _⟩ => ⟨S5, .f32⟩
  | .hbm, ⟨10, _⟩ => ⟨S1x5, .f32⟩
  | .hbm, ⟨11, _⟩ => ⟨S32768x5, .f32⟩
  | .hbm, ⟨12, _⟩ => ⟨S32768x5, .f32⟩
  | .hbm, ⟨13, _⟩ => ⟨S32768x5, .f32⟩
  | .hbm, ⟨14, _⟩ => ⟨S1024x5, .f32⟩
  | .hbm, ⟨15, _⟩ => ⟨S32768x5, .f32⟩
  | .hbm, ⟨16, _⟩ => ⟨S_, .f32⟩
  | .hbm, ⟨17, _⟩ => ⟨S32768x5, .f32⟩
  | .hbm, ⟨18, _⟩ => ⟨S32768x5, .f32⟩
  | .hbm, ⟨19, _⟩ => ⟨S32768x5, .f32⟩
  | .hbm, ⟨20, _⟩ => ⟨S_, .f32⟩
  | .hbm, ⟨21, _⟩ => ⟨S32768x5, .f32⟩
  | .hbm, ⟨22, _⟩ => ⟨S32768x5, .f32⟩
  | .hbm, ⟨23, _⟩ => ⟨S32768x5, .f32⟩
  | .hbm, ⟨24, _⟩ => ⟨S_, .f32⟩
  | .hbm, ⟨25, _⟩ => ⟨S32768x5, .f32⟩
  | .hbm, ⟨26, _⟩ => ⟨S32768x5, .f32⟩
  | .hbm, ⟨27, _⟩ => ⟨S32768x5, .f32⟩
  | .hbm, ⟨28, _⟩ => ⟨S2x3x5, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x3x5, .f32⟩
  | .hbm, ⟨33, _⟩ => ⟨S2x3x5, .f32⟩
  | .hbm, ⟨34, _⟩ => ⟨S_, .f32⟩
  | .hbm, ⟨35, _⟩ => ⟨S2x3x5, .f32⟩
  | .hbm, ⟨36, _⟩ => ⟨S2x3x5, .f32⟩
  | .hbm, ⟨37, _⟩ => ⟨S1x3x5, .f32⟩
  | .hbm, ⟨38, _⟩ => ⟨S3x5, .f32⟩
  | .hbm, ⟨39, _⟩ => ⟨S1x3x5, .f32⟩
  | .hbm, ⟨40, _⟩ => ⟨S3x5, .f32⟩
  | .hbm, ⟨41, _⟩ => ⟨S_, .f32⟩
  | .hbm, ⟨42, _⟩ => ⟨S3x5, .f32⟩
  | .hbm, ⟨43, _⟩ => ⟨S3x5, .f32⟩
  | .hbm, ⟨44, _⟩ => ⟨S3x5, .f32⟩
  | .hbm, ⟨45, _⟩ => ⟨S3x5, .f32⟩
  | .hbm, ⟨46, _⟩ => ⟨S5x3, .f32⟩
  | .hbm, ⟨47, _⟩ => ⟨S32768x3, .f32⟩
  | .hbm, ⟨48, _⟩ => ⟨S_, .f32⟩
  | .hbm, ⟨49, _⟩ => ⟨S3, .f32⟩
  | .hbm, ⟨50, _⟩ => ⟨S1x3, .f32⟩
  | .hbm, ⟨51, _⟩ => ⟨S32768x3, .f32⟩
  | .hbm, ⟨52, _⟩ => ⟨S32768x3, .f32⟩
  | .hbm, ⟨53, _⟩ => ⟨S3x5, .f32⟩
  | .hbm, ⟨54, _⟩ => ⟨S_, .f32⟩
  | .hbm, ⟨55, _⟩ => ⟨S3, .f32⟩
  | .hbm, ⟨56, _⟩ => ⟨S1x3, .f32⟩
  | .hbm, ⟨57, _⟩ => ⟨S32768x3, .f32⟩
  | .hbm, ⟨58, _⟩ => ⟨S32768x3, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S5x1024_S5_d1 : S5x1024.ReducesTo [1] S5
  bcast_S5_S1x5_1 : S5.BroadcastsInDim S1x5 (![1] : Fin 1 → Fin S1x5.rank)
  bcast_S32768x1_S32768x5_0_1 : S32768x1.BroadcastsInDim S32768x5 (![0, 1] : Fin 2 → Fin S32768x5.rank)
  bcast_S1x5_S32768x5_0_1 : S1x5.BroadcastsInDim S32768x5 (![0, 1] : Fin 2 → Fin S32768x5.rank)
  transposes_S5x1024_S1024x5_1_0 : S5x1024.Transposes [1, 0] S1024x5
  bcast_S_S32768x5 : S_.BroadcastsInDim S32768x5 (![] : Fin 0 → Fin S32768x5.rank)
  transposes_S5x3x2_S2x3x5_2_1_0 : S5x3x2.Transposes [2, 1, 0] S2x3x5
  bcast_S_S2x3x5 : S_.BroadcastsInDim S2x3x5 (![] : Fin 0 → Fin S2x3x5.rank)
  slices_S2x3x5_S1x3x5_0_0_0 : S2x3x5.Slices ![0, 0, 0] S1x3x5
  shapeCasts_S1x3x5_S3x5 : S1x3x5.ShapeCasts S3x5
  slices_S2x3x5_S1x3x5_1_0_0 : S2x3x5.Slices ![1, 0, 0] S1x3x5
  bcast_S_S3x5 : S_.BroadcastsInDim S3x5 (![] : Fin 0 → Fin S3x5.rank)
  transposes_S3x5_S5x3_1_0 : S3x5.Transposes [1, 0] S5x3
  reducesTo_S3x5_S3_d1 : S3x5.ReducesTo [1] S3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  dot_S32768x1024_S1024x5_S32768x5_1_0_0_1_n_n_wf : DotDims.WF S32768x1024 S1024x5 S32768x5 [1] [0] [0] [1] [] []
  dot_S32768x5_S5x3_S32768x3_1_0_0_1_n_n_wf : DotDims.WF S32768x5 S5x3 S32768x3 [1] [0] [0] [1] [] []

variable [Facts₀]

def dot_S32768x1024_S1024x5_S32768x5_1_0_0_1_n_n : DotDims S32768x1024 S1024x5 S32768x5 where
  lhsContracting := [1]
  rhsContracting := [0]
  lhsNonContracting := [0]
  rhsNonContracting := [1]
  lhsBatch := []
  rhsBatch := []
  wf := dot_S32768x1024_S1024x5_S32768x5_1_0_0_1_n_n_wf
def dot_S32768x5_S5x3_S32768x3_1_0_0_1_n_n : DotDims S32768x5 S5x3 S32768x3 where
  lhsContracting := [1]
  rhsContracting := [0]
  lhsNonContracting := [0]
  rhsNonContracting := [1]
  lhsBatch := []
  rhsBatch := []
  wf := dot_S32768x5_S5x3_S32768x3_1_0_0_1_n_n_wf

class Facts : Prop extends Facts₀ where

variable [Facts]
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.Payload.lean ====
/-
  What the kernel body computes for one block, read at one entry. For a block of 1024 rows of `x`, the
  transposed components `ct` (1024 × 5), their squared norms `c2` (1 × 5), the class weights `w` (5 × 3) and the two
  class rows `s`, `z` (1 × 3), the body's result at row `p` and class `j` is

      ( ∑ₖ exp( -1/2 · max( ‖x_p‖² + c2ₖ − 2 · ⟨x_p, ctₖ⟩ , 0 ) ) · w_{k j}  +  s_j )  /  z_j ,

  with ‖x_p‖² = ∑_d x_{p d}² and ⟨x_p, ctₖ⟩ = ∑_d x_{p d} · ct_{d k}. On the extended reals a change of float
  format is the identity, a lane sum and both matrix products are plain finite sums, and a row statistic kept as
  a column and broadcast back is that statistic at every column.
-/
import proofs.«104951_j34033320854004_1_alg».proof.Proof.Gen.KernelIdeal.Skeleton
import proofs.«104951_j34033320854004_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.LibKeepdims

/-! ## A row's sum -/

/-- The lane sum of a 1024 × 1024 block along its second axis, at row `p`, is the sum over the row's entries. -/
theorem rowSum_apply (v : FVec Ideal S1024x1024 .f32) (h : S1024x1024.Reduces [1] S1024) (hφ : FKind.Formats .f32)
    (hacc : (0x00000000#32 : BitVec 32) = 0x00000000#32) (p : Fin 1024) :
    multiReduction .add [1] S1024 v 0x00000000#32 h hφ hacc (ix1 p) = ∑ d : Fin 1024, v (ix2 p d) := by
  refine (Ideal.multiReduction_add_single v 0x00000000#32 h hφ hacc (ix1 p)).trans ?_
  refine Finset.sum_congr rfl fun d _ => ?_
  exact congrArg v (funext fun a => Fin.ext (by match a with | ⟨0, _⟩ => rfl | ⟨1, _⟩ => rfl))

/-! ## The first product: rows of the block against the transposed components -/

theorem lhs_xc_0 (i : S1024x5.Idx) (q : dot_S1024x1024_S1024x5_S1024x5_1_0_0_1_n_n.contr.Idx) :
    (dot_S1024x1024_S1024x5_S1024x5_1_0_0_1_n_n.lhsIdx i q 0).val = (i 0).val := by
  unfold DotDims.lhsIdx
  rw [dif_neg (show ¬(0 : Fin S1024x1024.rank) ∈ dot_S1024x1024_S1024x5_S1024x5_1_0_0_1_n_n.lhsBatch by decide), dif_pos (show (0 : Fin S1024x1024.rank) ∈ dot_S1024x1024_S1024x5_S1024x5_1_0_0_1_n_n.lhsNonContracting by decide)]
  rfl
theorem lhs_xc_1 (i : S1024x5.Idx) (q : dot_S1024x1024_S1024x5_S1024x5_1_0_0_1_n_n.contr.Idx) :
    (dot_S1024x1024_S1024x5_S1024x5_1_0_0_1_n_n.lhsIdx i q 1).val = (q ⟨0, by decide⟩).val :=
  dot_S1024x1024_S1024x5_S1024x5_1_0_0_1_n_n.lhsIdx_val_of_single rfl i q
theorem rhs_xc_0 (i : S1024x5.Idx) (q : dot_S1024x1024_S1024x5_S1024x5_1_0_0_1_n_n.contr.Idx) :
    (dot_S1024x1024_S1024x5_S1024x5_1_0_0_1_n_n.rhsIdx i q 0).val = (q ⟨0, by decide⟩).val :=
  dot_S1024x1024_S1024x5_S1024x5_1_0_0_1_n_n.rhsIdx_val_of_single rfl i q
theorem rhs_xc_1 (i : S1024x5.Idx) (q : dot_S1024x1024_S1024x5_S1024x5_1_0_0_1_n_n.contr.Idx) :
    (dot_S1024x1024_S1024x5_S1024x5_1_0_0_1_n_n.rhsIdx i q 1).val = (i 1).val := by
  unfold DotDims.rhsIdx
  rw [dif_neg (show ¬(1 : Fin S1024x5.rank) ∈ dot_S1024x1024_S1024x5_S1024x5_1_0_0_1_n_n.rhsBatch by decide), dif_pos (show (1 : Fin S1024x5.rank) ∈ dot_S1024x1024_S1024x5_S1024x5_1_0_0_1_n_n.rhsNonContracting by decide)]
  rfl

/-- The block's product with the 1024 × 5 operand into a zero accumulator, at `(p, k)`: the inner product of row `p`
    with column `k`. -/
theorem xc_apply (l : FVec Ideal S1024x1024 .bf16) (r : FVec Ideal S1024x5 .bf16) (p : Fin 1024) (k : Fin 5) :
    matmul dot_S1024x1024_S1024x5_S1024x5_1_0_0_1_n_n none l r (constant S1024x5 .f32 0x00000000#32) (ix2 p k)
      = ∑ d : Fin 1024, l (ix2 p d) * r (ix2 d k) := by
  simp only [matmul]
  rw [Ideal.matmul_constant_zero_apply, ← Equiv.sum_comp (ValueIdx.contrEquiv1 dot_S1024x1024_S1024x5_S1024x5_1_0_0_1_n_n 1024 rfl rfl).symm]
  refine Finset.sum_congr rfl fun d _ => ?_
  have hk := ValueIdx.contrEquiv1_symm_val dot_S1024x1024_S1024x5_S1024x5_1_0_0_1_n_n 1024 rfl rfl d
  have el : dot_S1024x1024_S1024x5_S1024x5_1_0_0_1_n_n.lhsIdx (ix2 p k) ((ValueIdx.contrEquiv1 dot_S1024x1024_S1024x5_S1024x5_1_0_0_1_n_n 1024 rfl rfl).symm d) = ix2 p d := funext fun a => Fin.ext (by
    match a with
    | ⟨0, _⟩ => exact lhs_xc_0 _ _
    | ⟨1, _⟩ => exact (lhs_xc_1 _ _).trans hk)
  have er : dot_S1024x1024_S1024x5_S1024x5_1_0_0_1_n_n.rhsIdx (ix2 p k) ((ValueIdx.contrEquiv1 dot_S1024x1024_S1024x5_S1024x5_1_0_0_1_n_n 1024 rfl rfl).symm d) = ix2 d k := funext fun a => Fin.ext (by
    match a with
    | ⟨0, _⟩ => exact (rhs_xc_0 _ _).trans hk
    | ⟨1, _⟩ => exact rhs_xc_1 _ _)
  rw [el, er]

/-! ## The second product: similarities against the class weights -/

theorem lhs_sw_0 (i : S1024x3.Idx) (q : dot_S1024x5_S5x3_S1024x3_1_0_0_1_n_n.contr.Idx) :
    (dot_S1024x5_S5x3_S1024x3_1_0_0_1_n_n.lhsIdx i q 0).val = (i 0).val := by
  unfold DotDims.lhsIdx
  rw [dif_neg (show ¬(0 : Fin S1024x5.rank) ∈ dot_S1024x5_S5x3_S1024x3_1_0_0_1_n_n.lhsBatch by decide), dif_pos (show (0 : Fin S1024x5.rank) ∈ dot_S1024x5_S5x3_S1024x3_1_0_0_1_n_n.lhsNonContracting by decide)]
  rfl
theorem lhs_sw_1 (i : S1024x3.Idx) (q : dot_S1024x5_S5x3_S1024x3_1_0_0_1_n_n.contr.Idx) :
    (dot_S1024x5_S5x3_S1024x3_1_0_0_1_n_n.lhsIdx i q 1).val = (q ⟨0, by decide⟩).val :=
  dot_S1024x5_S5x3_S1024x3_1_0_0_1_n_n.lhsIdx_val_of_single rfl i q
theorem rhs_sw_0 (i : S1024x3.Idx) (q : dot_S1024x5_S5x3_S1024x3_1_0_0_1_n_n.contr.Idx) :
    (dot_S1024x5_S5x3_S1024x3_1_0_0_1_n_n.rhsIdx i q 0).val = (q ⟨0, by decide⟩).val :=
  dot_S1024x5_S5x3_S1024x3_1_0_0_1_n_n.rhsIdx_val_of_single rfl i q
theorem rhs_sw_1 (i : S1024x3.Idx) (q : dot_S1024x5_S5x3_S1024x3_1_0_0_1_n_n.contr.Idx) :
    (dot_S1024x5_S5x3_S1024x3_1_0_0_1_n_n.rhsIdx i q 1).val = (i 1).val := by
  unfold DotDims.rhsIdx
  rw [dif_neg (show ¬(1 : Fin S5x3.rank) ∈ dot_S1024x5_S5x3_S1024x3_1_0_0_1_n_n.rhsBatch by decide), dif_pos (show (1 : Fin S5x3.rank) ∈ dot_S1024x5_S5x3_S1024x3_1_0_0_1_n_n.rhsNonContracting by decide)]
  rfl

/-- The 1024 × 5 similarities' product with the 5 × 3 weights into a zero accumulator, at `(p, j)`: the sum over the
    five components. -/
theorem sw_apply (l : FVec Ideal S1024x5 .bf16) (r : FVec Ideal S5x3 .bf16) (p : Fin 1024) (j : Fin 3) :
    matmul dot_S1024x5_S5x3_S1024x3_1_0_0_1_n_n none l r (constant S1024x3 .f32 0x00000000#32) (ix2 p j)
      = ∑ k : Fin 5, l (ix2 p k) * r (ix2 k j) := by
  simp only [matmul]
  rw [Ideal.matmul_constant_zero_apply, ← Equiv.sum_comp (ValueIdx.contrEquiv1 dot_S1024x5_S5x3_S1024x3_1_0_0_1_n_n 5 rfl rfl).symm]
  refine Finset.sum_congr rfl fun k _ => ?_
  have hk := ValueIdx.contrEquiv1_symm_val dot_S1024x5_S5x3_S1024x3_1_0_0_1_n_n 5 rfl rfl k
  have el : dot_S1024x5_S5x3_S1024x3_1_0_0_1_n_n.lhsIdx (ix2 p j) ((ValueIdx.contrEquiv1 dot_S1024x5_S5x3_S1024x3_1_0_0_1_n_n 5 rfl rfl).symm k) = ix2 p k := funext fun a => Fin.ext (by
    match a with
    | ⟨0, _⟩ => exact lhs_sw_0 _ _
    | ⟨1, _⟩ => exact (lhs_sw_1 _ _).trans hk)
  have er : dot_S1024x5_S5x3_S1024x3_1_0_0_1_n_n.rhsIdx (ix2 p j) ((ValueIdx.contrEquiv1 dot_S1024x5_S5x3_S1024x3_1_0_0_1_n_n 5 rfl rfl).symm k) = ix2 k j := funext fun a => Fin.ext (by
    match a with
    | ⟨0, _⟩ => exact (rhs_sw_0 _ _).trans hk
    | ⟨1, _⟩ => exact rhs_sw_1 _ _)
  rw [el, er]

/-! ## The body's result at an entry -/

/-- The clamped squared distance of row `p` of the block to component `k`, scaled by -1/2 and exponentiated: the
    similarity the body forms before the second product. -/
def sim (x : Vec Ideal S1024x1024 .f32) (ct : Vec Ideal S1024x5 .bf16) (c2 : Vec Ideal S1x5 .f32) (p : Fin 1024) (k : Fin 5) : EReal :=
  Ideal.exp (Ideal.ofBits .f32 0xBF000000#32 *
    max ((∑ d : Fin 1024, x (ix2 p d) * x (ix2 p d)) + c2 (ix2 (0 : Fin 1) k)
          - Ideal.ofBits .f32 0x40000000#32 * ∑ d : Fin 1024, x (ix2 p d) * ct (ix2 d k))
        (Ideal.ofBits .f32 0x00000000#32))

/-- The body's one store, at row `p` and class `j` of the block. -/
theorem pay_apply (x : Vec Ideal S1024x1024 .f32) (ct : Vec Ideal S1024x5 .bf16) (c2 : Vec Ideal S1x5 .f32)
    (w : Vec Ideal S5x3 .bf16) (s z : Vec Ideal S1x3 .f32) (p : Fin 1024) (j : Fin 3) :
    k0_pay1 (F := Ideal) x ct c2 w s z (ix2 p j)
      = Ideal.div ((∑ k : Fin 5, sim x ct c2 p k * w (ix2 k j)) + s (ix2 (0 : Fin 1) j)) (z (ix2 (0 : Fin 1) j)) := by
  unfold k0_pay1
  simp only [shapeCast_self]
  rw [divf_apply, addf_apply, sw_apply, broadcastTo_1b_ab_apply, broadcastTo_1b_ab_apply]
  refine congrArg (fun t => Ideal.div (t + s (ix2 (0 : Fin 1) j)) (z (ix2 (0 : Fin 1) j))) (Finset.sum_congr rfl fun k _ => ?_)
  refine congrArg (· * w (ix2 k j)) ?_
  unfold sim
  rw [truncf_apply]
  show Ideal.exp _ = _
  refine congrArg Ideal.exp ?_
  rw [mulf_apply, broadcast_apply, maximumf_apply, broadcast_apply, subf_apply, addf_apply, mulf_apply, broadcast_apply,
    broadcastTo_a1_ab_apply, shapeCast_a_a1_apply, rowSum_apply, broadcastTo_1b_ab_apply, xc_apply]
  rfl

end Cert.KernelIdeal.Payload

end
-- ==== Proof.RefEntry.lean ====
/-
  The reference's result read at one entry. At row `r` and class `j`,

      ( ∑ₖ exp( −max( ‖x_r‖² + ‖cₖ‖² − 2 · ⟨x_r, cₖ⟩ , 0 ) / 2 ) · (pk − nk)_{j k}  +  (Σ nk)_j )  /  (Σ (pk + nk))_j ,

  where ‖x_r‖² is the host's row sum from its initial value 0, ⟨x_r, cₖ⟩ the host product of `x` with the
  transposed components, and the three class quantities are left as the stages that compute them from the
  reasonings: the bridge to the kernel never opens them. Every step is one stage of the program read at an
  index; the broadcasts and the two products only move the index.
-/
import proofs.«104951_j34033320854004_1_alg».proof.Proof.Gen.ReferenceIdeal.Read
import Idealize.ShloMosaic.Lib.ValueIdx

noncomputable section

namespace Cert.ReferenceIdeal.Entry

open Idealize.ShloMosaic Idealize.ShloMosaic.ValueIdx Cert.ReferenceIdeal Cert.ReferenceIdeal.Read

/-- The similarity of row `r` to component `k` as the reference forms it: the clamped squared distance negated,
    halved and exponentiated. -/
def sim (x : S32768x1024.Idx → EReal) (cs : S5x1024.Idx → EReal) (r : Fin 32768) (k : Fin 5) : EReal :=
  Ideal.exp (Ideal.div
    (-(max ((Ideal.ofBits .f32 0x00000000#32 + ∑ d : Fin 1024, x (ix2 r d) * x (ix2 r d)) + val_main_v4 (F := Ideal) cs (ix1 k)
              - Ideal.ofBits .f32 0x40000000#32 * ∑ d : Fin 1024, x (ix2 r d) * val_main_v9 (F := Ideal) cs (ix2 d k))
            (Ideal.ofBits .f32 0x00000000#32)))
    (Ideal.ofBits .f32 0x40000000#32))

/-- The similarity stage at `(r, k)`. -/
theorem sim_apply (x : S32768x1024.Idx → EReal) (cs : S5x1024.Idx → EReal) (r : Fin 32768) (k : Fin 5) :
    val_main_v19 (F := Ideal) x cs (ix2 r k) = sim x cs r k := by
  have e1 : idx_main_v2 (idx_main_v6 (ix2 r k)) = ix1 r := funext fun a => by match a with | ⟨0, _⟩ => rfl
  have e2 : idx_main_v5 (idx_main_v7 (ix2 r k)) = ix1 k := funext fun a => by match a with | ⟨0, _⟩ => rfl
  have e3 : ∀ d : Fin 1024, idx_main_v1 (ix1 r) d = ix2 r d := fun d =>
    funext fun a => by match a with | ⟨0, _⟩ => rfl | ⟨1, _⟩ => rfl
  have e4 : ∀ d : Fin 1024, lidx_main_v10 (ix2 r k) d = ix2 r d := fun d =>
    funext fun a => by match a with | ⟨0, _⟩ => rfl | ⟨1, _⟩ => rfl
  have e5 : ∀ d : Fin 1024, ridx_main_v10 (ix2 r k) d = ix2 d k := fun d =>
    funext fun a => by match a with | ⟨0, _⟩ => rfl | ⟨1, _⟩ => rfl
  rw [val_main_v19_apply, val_main_v18_apply, val_main_v16_apply, val_main_v15_apply, val_main_v13_apply,
    val_main_v8_apply, val_main_v12_apply, val_main_v6_apply, val_main_v2_apply, val_main_v7_apply, val_main_v5_apply,
    val_main_v1_apply, val_main_v10_apply, e1, e2]
  simp only [e3, e4, e5]
  rfl

/-- The reference's result at `(r, j)`. -/
theorem out_apply (x : S32768x1024.Idx → EReal) (cs : S5x1024.Idx → EReal) (rs : S5x3x2.Idx → EReal) (r : Fin 32768) (j : Fin 3) :
    val_main_v40 (F := Ideal) x cs rs (ix2 r j)
      = Ideal.div ((∑ k : Fin 5, sim x cs r k * val_main_v30 (F := Ideal) rs (ix2 k j)) + val_main_v32 (F := Ideal) rs (ix1 j))
          (val_main_v37 (F := Ideal) rs (ix1 j)) := by
  have e1 : idx_main_v33 (idx_main_v34 (ix2 r j)) = ix1 j := funext fun a => by match a with | ⟨0, _⟩ => rfl
  have e2 : idx_main_v38 (idx_main_v39 (ix2 r j)) = ix1 j := funext fun a => by match a with | ⟨0, _⟩ => rfl
  have e3 : ∀ k : Fin 5, lidx_main_v31 (ix2 r j) k = ix2 r k := fun k =>
    funext fun a => by match a with | ⟨0, _⟩ => rfl | ⟨1, _⟩ => rfl
  have e4 : ∀ k : Fin 5, ridx_main_v31 (ix2 r j) k = ix2 k j := fun k =>
    funext fun a => by match a with | ⟨0, _⟩ => rfl | ⟨1, _⟩ => rfl
  rw [val_main_v40_apply, val_main_v35_apply, val_main_v31_apply, val_main_v34_apply, val_main_v33_apply,
    val_main_v39_apply, val_main_v38_apply, e1, e2]
  simp only [e3, e4, sim_apply]
  rfl

end Cert.ReferenceIdeal.Entry

end
-- ==== Proof.Literals.lean ====
/-
  The two float literals whose values the bridge between the two programs uses, and the one scalar law on
  the extended reals that joins them: the kernel scales the clamped squared distance by -1/2, the reference
  negates it and divides by 2.
-/
import Idealize.ShloMosaic.PureOps.Ideal

noncomputable section

namespace Cert.Literals

open Idealize.ShloMosaic

/-- The pattern of `2.0` denotes the real number 2. -/
theorem ofBits_two : Ideal.ofBits .f32 0x40000000#32 = ((2 : ℝ) : EReal) := by
  simp [Ideal.ofBits, Ideal.ieee, -EReal.coe_mul]; norm_num

/-- The pattern of `-0.5` denotes the real number -1/2. -/
theorem ofBits_negHalf : Ideal.ofBits .f32 0xBF000000#32 = ((-(1 / 2) : ℝ) : EReal) := by
  simp [Ideal.ofBits, Ideal.ieee, -EReal.coe_mul]; norm_num

/-- On every extended real, infinite ones included: (-1/2) · d = (-d) / 2. The quotient by the nonzero real 2 is
    the product with 1/2, and a sign moves across a product of extended reals freely. -/
theorem negHalf_mul (d : EReal) :
    Ideal.ofBits .f32 0xBF000000#32 * d = Ideal.div (-d) (Ideal.ofBits .f32 0x40000000#32) := by
  rw [ofBits_negHalf, ofBits_two, Ideal.div_coe (by norm_num : (2 : ℝ) ≠ 0), EReal.coe_neg, EReal.neg_mul,
    EReal.neg_mul, mul_comm]

end Cert.Literals

end
-- ==== Proof.Bridge.lean ====
/-
  The two programs agree entry by entry. Take a block `X` of 1024 rows and the five small arrays the kernel
  stages, and suppose that, entry by entry, the block's row `p` is row `r` of `x` and the small arrays are the
  reference's transposed components, squared norms, class weights and two class rows. Then the kernel body's
  result at `(p, j)` is the reference's result at `(r, j)`.

  Both sides are the same quotient of the same sums. They differ in two places only: the kernel scales the clamped
  squared distance by -1/2 where the reference negates it and divides by 2 — equal on every extended real — and
  the reference's row sum starts from the initial value 0, which adds nothing.
-/
import proofs.«104951_j34033320854004_1_alg».proof.Proof.Payload
import proofs.«104951_j34033320854004_1_alg».proof.Proof.RefEntry
import proofs.«104951_j34033320854004_1_alg».proof.Proof.Literals
import Idealize.ShloMosaic.PureOps.Ideal.Laws

noncomputable section

namespace Cert.Bridge

open Idealize.ShloMosaic Idealize.ShloMosaic.ValueIdx
open Cert.ReferenceIdeal.Read

/-- One similarity: the kernel's exp(-1/2 · D) is the reference's exp((−D) / 2), the two clamped squared
    distances `D` being the same number once the block's row and the staged arrays are read as the reference's. -/
theorem sim_eq (X : Cert.KernelIdeal.S1024x1024.Idx → EReal) (CT : Cert.KernelIdeal.S1024x5.Idx → EReal)
    (C2 : Cert.KernelIdeal.S1x5.Idx → EReal)
    (x : Cert.ReferenceIdeal.S32768x1024.Idx → EReal) (cs : Cert.ReferenceIdeal.S5x1024.Idx → EReal)
    (p : Fin 1024) (r : Fin 32768) (k : Fin 5)
    (hX : ∀ d : Fin 1024, X (ix2 p d) = x (ix2 r d))
    (hCT : ∀ d : Fin 1024, CT (ix2 d k) = val_main_v9 (F := Ideal) cs (ix2 d k))
    (hC2 : C2 (ix2 (0 : Fin 1) k) = val_main_v4 (F := Ideal) cs (ix1 k)) :
    Cert.KernelIdeal.Payload.sim X CT C2 p k = Cert.ReferenceIdeal.Entry.sim x cs r k := by
  unfold Cert.KernelIdeal.Payload.sim Cert.ReferenceIdeal.Entry.sim
  rw [Cert.Literals.negHalf_mul]
  simp only [hX, hCT, hC2, Ideal.ofBits_zero_f32, zero_add]

/-- One entry of the result. -/
theorem entry_eq (X : Cert.KernelIdeal.S1024x1024.Idx → EReal) (CT : Cert.KernelIdeal.S1024x5.Idx → EReal)
    (C2 : Cert.KernelIdeal.S1x5.Idx → EReal) (W : Cert.KernelIdeal.S5x3.Idx → EReal)
    (S Z : Cert.KernelIdeal.S1x3.Idx → EReal)
    (x : Cert.ReferenceIdeal.S32768x1024.Idx → EReal) (cs : Cert.ReferenceIdeal.S5x1024.Idx → EReal)
    (rs : Cert.ReferenceIdeal.S5x3x2.Idx → EReal)
    (p : Fin 1024) (r : Fin 32768) (j : Fin 3)
    (hX : ∀ d : Fin 1024, X (ix2 p d) = x (ix2 r d))
    (hCT : ∀ (d : Fin 1024) (k : Fin 5), CT (ix2 d k) = val_main_v9 (F := Ideal) cs (ix2 d k))
    (hC2 : ∀ k : Fin 5, C2 (ix2 (0 : Fin 1) k) = val_main_v4 (F := Ideal) cs (ix1 k))
    (hW : ∀ k : Fin 5, W (ix2 k j) = val_main_v30 (F := Ideal) rs (ix2 k j))
    (hS : S (ix2 (0 : Fin 1) j) = val_main_v32 (F := Ideal) rs (ix1 j))
    (hZ : Z (ix2 (0 : Fin 1) j) = val_main_v37 (F := Ideal) rs (ix1 j)) :
    Cert.KernelIdeal.Gen.k0_pay1 (F := Ideal) X CT C2 W S Z (ix2 p j) = val_main_v40 (F := Ideal) x cs rs (ix2 r j) := by
  rw [Cert.KernelIdeal.Payload.pay_apply, Cert.ReferenceIdeal.Entry.out_apply, hS, hZ]
  refine congrArg (fun t => Ideal.div (t + val_main_v32 (F := Ideal) rs (ix1 j)) (val_main_v37 (F := Ideal) rs (ix1 j)))
    (Finset.sum_congr rfl fun k _ => ?_)
  rw [hW k, sim_eq X CT C2 x cs p r k hX (fun d => hCT d k) (hC2 k)]

end Cert.Bridge

end
-- ==== Proof.Windows.lean ====
/-
  The five small arrays the kernel's host code prepares before the launch, read as the region finds them, are
  the same functions of the arguments that the reference forms on its way: the transposed components, the
  components' squared norms, the transposed class weights pk − nk, and the two class rows Σ nk and Σ (pk + nk).
  On the extended reals the conversion to the short float format is the identity, and a length-n vector
  reshaped to one row reads, at column i, the vector at i.
-/
import proofs.«104951_j34033320854004_1_alg».proof.Proof.Gen.KernelIdeal.Frame
import proofs.«104951_j34033320854004_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Windows

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ)

/-- The components and the reasonings as launched, on core `c`. -/
abbrev comps (c : Dev nD) : S5x1024.Idx → EReal := m ((c : Thread nD τ).loc main_arg1)
abbrev reas (c : Dev nD) : S5x3x2.Idx → EReal := m ((c : Thread nD τ).loc main_arg2)

/-- The transposed components the kernel stages are the reference's transposed components. -/
theorem ct_eq (c : Dev nD) :
    (V m c main_v4 : S1024x5.Idx → EReal) = Cert.ReferenceIdeal.Read.val_main_v9 (F := Ideal) (comps m c) := by
  dsimp only [V]
  simp only [hostOps0, hostOps0_1, hostOps0_2, List.flatten_cons, List.flatten_nil, List.append_nil, List.cons_append,
    List.nil_append]
  after_results
  rfl

/-- The squared norms the kernel stages as one row are, column by column, the reference's squared norms. -/
theorem c2_at (c : Dev nD) (k : Fin 5) :
    (V m c main_v2 : S1x5.Idx → EReal) (ix2 (0 : Fin 1) k) = Cert.ReferenceIdeal.Read.val_main_v4 (F := Ideal) (comps m c) (ix1 k) := by
  have e : (V m c main_v2 : S1x5.Idx → EReal)
      = shapeCast S1x5 (Cert.ReferenceIdeal.Read.val_main_v4 (F := Ideal) (comps m c)) shapeCasts_S5_S1x5 := by
    dsimp only [V]
    simp only [hostOps0, hostOps0_1, hostOps0_2, List.flatten_cons, List.flatten_nil, List.append_nil, List.cons_append,
      List.nil_append]
    after_results
    rfl
  rw [e]
  exact shapeCast_a_1a_apply _ _ (0 : Fin 1) k

/-- The class weights the kernel stages are the reference's transposed pk − nk. -/
theorem w_eq (c : Dev nD) :
    (V m c main_v16 : S5x3.Idx → EReal) = Cert.ReferenceIdeal.Read.val_main_v30 (F := Ideal) (reas m c) := by
  dsimp only [V]
  simp only [hostOps0, hostOps0_1, hostOps0_2, List.flatten_cons, List.flatten_nil, List.append_nil, List.cons_append,
    List.nil_append]
  after_results_simp <;> rfl

/-- The row Σₖ nk the kernel stages is, column by column, the reference's. -/
theorem s_at (c : Dev nD) (j : Fin 3) :
    (V m c main_v18 : S1x3.Idx → EReal) (ix2 (0 : Fin 1) j) = Cert.ReferenceIdeal.Read.val_main_v32 (F := Ideal) (reas m c) (ix1 j) := by
  have e : (V m c main_v18 : S1x3.Idx → EReal)
      = shapeCast S1x3 (Cert.ReferenceIdeal.Read.val_main_v32 (F := Ideal) (reas m c)) shapeCasts_S3_S1x3 := by
    dsimp only [V]
    simp only [hostOps0, hostOps0_1, hostOps0_2, List.flatten_cons, List.flatten_nil, List.append_nil, List.cons_append,
      List.nil_append]
    after_results_simp <;> rfl
  rw [e]
  exact shapeCast_a_1a_apply _ _ (0 : Fin 1) j

/-- The row Σₖ (pk + nk) the kernel stages is, column by column, the reference's. -/
theorem z_at (c : Dev nD) (j : Fin 3) :
    (V m c main_v21 : S1x3.Idx → EReal) (ix2 (0 : Fin 1) j) = Cert.ReferenceIdeal.Read.val_main_v37 (F := Ideal) (reas m c) (ix1 j) := by
  have e : (V m c main_v21 : S1x3.Idx → EReal)
      = shapeCast S1x3 (Cert.ReferenceIdeal.Read.val_main_v37 (F := Ideal) (reas m c)) shapeCasts_S3_S1x3 := by
    dsimp only [V]
    simp only [hostOps0, hostOps0_1, hostOps0_2, List.flatten_cons, List.flatten_nil, List.append_nil, List.cons_append,
      List.nil_append]
    after_results_simp <;> rfl
  rw [e]
  exact shapeCast_a_1a_apply _ _ (0 : Fin 1) j

end Cert.KernelIdeal.Windows

end
-- ==== Proof.Whole.lean ====
/-
  The kernel's whole output array. Grid point `t` handles rows 1024·t … 1024·t + 1023 of `x`: its block of `x`
  is those rows, the five small arrays are staged whole at every point, and what it writes back is rows
  1024·t … 1024·t + 1023 of the output. Entry by entry that block is the reference's result on the same rows
  (the bridge between the two programs), the 32 blocks cover all 32768 rows, and so after the run the output
  array is the reference's function of the three arguments.
-/
import proofs.«104951_j34033320854004_1_alg».proof.Proof.Gen.KernelIdeal.Value
import proofs.«104951_j34033320854004_1_alg».proof.Proof.Bridge
import proofs.«104951_j34033320854004_1_alg».proof.Proof.Windows
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as one function of the arguments as launched: the reference's, index by index. -/
abbrev out (c : Dev nD) : S32768x3.Idx → EReal :=
  Cert.ReferenceIdeal.Read.val_main_v40 (F := Ideal) (m ((c : Thread nD τ).loc main_arg0))
    (Windows.comps m c) (Windows.reas m c)

/-- The printed index maps over the 32 grid points: the block of `x` and the output block move with the point
    along the rows, every other window stays at its one block. -/
theorem idx_facts : ∀ t : Fin cfg0.N, t.val < 32
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every one of the 32 row blocks of the output is some point's. -/
theorem idx_onto : ∀ q : Fin 32, ∃ t : Fin cfg0.N, win0_6.index t = ![q.val, 0] :=
  (by decide +kernel : ∀ q : Fin 32, ∃ t : Fin grid0.N, win0_6.index t = ![q.val, 0])

/-- What point `t` writes back is block `t` of the reference's result. -/
theorem flushed_eq (c : Dev nD) (t : Fin cfg0.N) :
    (dats m 0 c).flushed 6 t = ((cfg0.win 6).blk t).view.read (Elt Ideal) (out m c) := by
  rw [Cert.KernelIdeal.Value.flushed6]
  unfold out0_6
  rw [View.canon_unit_zero hz]
  simp only [View.ld_unit_zero (S := S1024x1024) hz, View.ld_unit_zero (S := S1024x5) hz, View.ld_unit_zero (S := S1x5) hz,
    View.ld_unit_zero (S := S5x3) hz, View.ld_unit_zero (S := S1x3) hz]
  obtain ⟨ht, a0, a1, b0, b1, c0, c1, d0, d1, e0, e1, f0, f1, g0, g1⟩ := idx_facts t
  funext y
  obtain ⟨p, j, rfl⟩ : ∃ (p : Fin 1024) (j : Fin 3), y = ix2 p j := ⟨y 0, y 1, eq_ix2 y⟩
  have hp : p.val < 1024 := p.isLt
  have hr : t.val * 1024 + p.val < 32768 := by omega
  show k0_pay1 (F := Ideal) (iblk m c 0 t) (iblk m c 1 t) (iblk m c 2 t) (iblk m c 3 t) (iblk m c 4 t) (iblk m c 5 t) (ix2 p j)
      = out m c (((cfg0.win 6).blk t).view.emb (ix2 p j))
  have hemb : ((cfg0.win 6).blk t).view.emb (ix2 p j) = ix2 (⟨t.val * 1024 + p.val, hr⟩ : Fin 32768) j := by
    funext a; apply Fin.ext
    match a with
    | ⟨0, _⟩ => show win0_6.index t (0 : Fin 2) * 1024 + 1 * p.val = t.val * 1024 + p.val; omega
    | ⟨1, _⟩ => show win0_6.index t (1 : Fin 2) * 3 + 1 * j.val = j.val; omega
  rw [hemb]
  refine Cert.Bridge.entry_eq (iblk m c 0 t) (iblk m c 1 t) (iblk m c 2 t) (iblk m c 3 t) (iblk m c 4 t) (iblk m c 5 t)
    (m ((c : Thread nD τ).loc main_arg0)) (Windows.comps m c) (Windows.reas m c) p ⟨t.val * 1024 + p.val, hr⟩ j ?_ ?_ ?_ ?_ ?_ ?_
  · -- row p of the block of x is row 1024·t + p of x
    intro d
    show V m c main_arg0 (((cfg0.win 0).blk t).view.emb (ix2 p d)) = _
    rw [V_main_arg0]
    refine congrArg (m ((c : Thread nD τ).loc main_arg0)) ?_
    funext a; apply Fin.ext
    match a with
    | ⟨0, _⟩ => show win0_0.index t (0 : Fin 2) * 1024 + 1 * p.val = t.val * 1024 + p.val; omega
    | ⟨1, _⟩ => show win0_0.index t (1 : Fin 2) * 1024 + 1 * d.val = d.val; omega
  · -- the staged transposed components, whole
    intro d k
    show V m c main_v4 (((cfg0.win 1).blk t).view.emb (ix2 d k)) = _
    have he : ((cfg0.win 1).blk t).view.emb (ix2 d k) = ix2 d k := by
      funext a; apply Fin.ext
      match a with
      | ⟨0, _⟩ => show win0_1.index t (0 : Fin 2) * 1024 + 1 * d.val = d.val; omega
      | ⟨1, _⟩ => show win0_1.index t (1 : Fin 2) * 5 + 1 * k.val = k.val; omega
    rw [he]
    exact congrFun (Windows.ct_eq m c) (ix2 d k)
  · -- the staged squared norms
    intro k
    show V m c main_v2 (((cfg0.win 2).blk t).view.emb (ix2 (0 : Fin 1) k)) = _
    have he : ((cfg0.win 2).blk t).view.emb (ix2 (0 : Fin 1) k) = ix2 (0 : Fin 1) k := by
      funext a; apply Fin.ext
      match a with
      | ⟨0, _⟩ => show win0_2.index t (0 : Fin 2) * 1 + 1 * 0 = 0; omega
      | ⟨1, _⟩ => show win0_2.index t (1 : Fin 2) * 5 + 1 * k.val = k.val; omega
    rw [he]
    exact Windows.c2_at m c k
  · -- the staged class weights
    intro k
    show V m c main_v16 (((cfg0.win 3).blk t).view.emb (ix2 k j)) = _
    have he : ((cfg0.win 3).blk t).view.emb (ix2 k j) = ix2 k j := by
      funext a; apply Fin.ext
      match a with
      | ⟨0, _⟩ => show win0_3.index t (0 : Fin 2) * 5 + 1 * k.val = k.val; omega
      | ⟨1, _⟩ => show win0_3.index t (1 : Fin 2) * 3 + 1 * j.val = j.val; omega
    rw [he]
    exact congrFun (Windows.w_eq m c) (ix2 k j)
  · -- the staged row Σ nk
    show V m c main_v18 (((cfg0.win 4).blk t).view.emb (ix2 (0 : Fin 1) j)) = _
    have he : ((cfg0.win 4).blk t).view.emb (ix2 (0 : Fin 1) j) = ix2 (0 : Fin 1) j := by
      funext a; apply Fin.ext
      match a with
      | ⟨0, _⟩ => show win0_4.index t (0 : Fin 2) * 1 + 1 * 0 = 0; omega
      | ⟨1, _⟩ => show win0_4.index t (1 : Fin 2) * 3 + 1 * j.val = j.val; omega
    rw [he]
    exact Windows.s_at m c j
  · -- the staged row Σ (pk + nk)
    show V m c main_v21 (((cfg0.win 5).blk t).view.emb (ix2 (0 : Fin 1) j)) = _
    have he : ((cfg0.win 5).blk t).view.emb (ix2 (0 : Fin 1) j) = ix2 (0 : Fin 1) j := by
      funext a; apply Fin.ext
      match a with
      | ⟨0, _⟩ => show win0_5.index t (0 : Fin 2) * 1 + 1 * 0 = 0; omega
      | ⟨1, _⟩ => show win0_5.index t (1 : Fin 2) * 3 + 1 * j.val = j.val; omega
    rw [he]
    exact Windows.z_at m c j

/-- An index of the output is in point `t`'s block iff each coordinate is in the block's range on its axis. -/
theorem mem_blk (t : Fin cfg0.N) (i : S32768x3.Idx) :
    i ∈ ((cfg0.win 6).blk t).view.set ↔ ∀ a : Fin 2, win0_6.index t a * S1024x3.size a ≤ (i a).val ∧ (i a).val < win0_6.index t a * S1024x3.size a + S1024x3.size a := by
  show i ∈ ((View.whole main_v22).slice (win0_6.rect t)).set ↔ _
  rw [View.set_slice_whole, Rect.mem_set_unit]
  exact Iff.rfl

/-- The 32 blocks cover the output: row `r` is in the block of point `r / 1024`. -/
theorem cover (i : S32768x3.Idx) : ∃ t : Fin cfg0.N, (cfg0.win 6).flush t = true ∧ i ∈ ((cfg0.win 6).blk t).view.set := by
  have hi0 : (i 0).val < 32768 := (i 0).isLt
  have hi1 : (i 1).val < 3 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 3 ≤ (i 1).val ∧ (i 1).val < win0_6.index t (1 : Fin 2) * 3 + 3; omega

/-- The output array after the run is the reference's result. -/
theorem final (c : Dev nD) : (dats m 0 c).arrAt 6 cfg0.N = out m c :=
  (dats m 0 c).arrAt_eq_of_cover 6 (out m c) (fun t _ => flushed_eq m c t) cover

/-- The kernel's run: it terminates, the output array ends at the reference's function of the arguments, and
    the arguments end unchanged. -/
theorem run : θ_run defs (onTc (τ := τ) (main (F := Ideal))) ⟨m, fun _ => 0, ρ⟩ fun r => ∀ c : Dev nD,
      r.2.mem ((c : Thread nD τ).loc main_v22) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  The kernel computes, for each row x_r of x (32768 × 1024), the class probabilities of a classification-by-components
  head: the similarities exp(−‖x_r − c_k‖² / 2) to the five components c_k, with the squared distance expanded as
  ‖x_r‖² + ‖c_k‖² − 2 ⟨x_r, c_k⟩ and clamped at 0, weighted by pk − nk, shifted by Σ nk and divided by Σ (pk + nk),
  where pk and nk come from the reasonings clipped to [0, 1]. It streams x in 32 blocks of 1024 rows; the five
  small arrays derived from the components and the reasonings are prepared once, outside the blocks. The
  reference computes the same formula on whole arrays.

  Read over the extended reals the two are one function of the arguments, entry by entry: a change of float format
  is the identity, each lane sum and each matrix product is a finite sum, a broadcast only moves the index, the
  kernel's scaling by −1/2 is the reference's negation followed by division by 2 (equal on every extended real,
  infinite ones included), and the reference's row sums start from the initial value 0. No step needs the inputs
  to be finite, so the precondition is never opened.

  The kernel's idealization rewrote no operation, so that conjunct is trivially true. The three frames are the
  generated ones; the reference's is its run with the result dropped.
-/
import proofs.«104951_j34033320854004_1_alg».proof.Defs
import proofs.«104951_j34033320854004_1_alg».proof.Proof.Gen.Kernel
import proofs.«104951_j34033320854004_1_alg».proof.Proof.Gen.Kernel.Skeleton
import proofs.«104951_j34033320854004_1_alg».proof.Proof.Gen.Kernel.Launch
import proofs.«104951_j34033320854004_1_alg».proof.Proof.Gen.Kernel.Points
import proofs.«104951_j34033320854004_1_alg».proof.Proof.Gen.Kernel.Frame
import proofs.«104951_j34033320854004_1_alg».proof.Proof.Gen.KernelIdeal
import proofs.«104951_j34033320854004_1_alg».proof.Proof.Gen.KernelIdeal.Skeleton
import proofs.«104951_j34033320854004_1_alg».proof.Proof.Gen.KernelIdeal.Launch
import proofs.«104951_j34033320854004_1_alg».proof.Proof.Gen.KernelIdeal.Points
import proofs.«104951_j34033320854004_1_alg».proof.Proof.Gen.KernelIdeal.Frame
import proofs.«104951_j34033320854004_1_alg».proof.Proof.Gen.ReferenceIdeal
import proofs.«104951_j34033320854004_1_alg».proof.Proof.Gen.Pre_finite_inputs
import proofs.«104951_j34033320854004_1_alg».proof.Proof.Gen.KernelIdeal.Value
import proofs.«104951_j34033320854004_1_alg».proof.Proof.Gen.ReferenceIdeal.Run
import proofs.«104951_j34033320854004_1_alg».proof.Proof.Gen.ReferenceIdeal.Read
import proofs.«104951_j34033320854004_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments both programs end with the same result array: the kernel's
    output is the reference's function of its own arguments, the reference's is that function of arguments that
    are the same. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
